-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x128 : Shape := ⟨2, ![5000, 128]⟩
abbrev S5000x16 : Shape := ⟨2, ![5000, 16]⟩
abbrev S3300000x16 : Shape := ⟨2, ![3300000, 16]⟩
abbrev S1x16 : Shape := ⟨2, ![1, 16]⟩
abbrev S100000x64 : Shape := ⟨2, ![100000, 64]⟩
abbrev S5000x64 : Shape := ⟨2, ![5000, 64]⟩
abbrev S3300000x64 : Shape := ⟨2, ![3300000, 64]⟩
abbrev S1x64 : Shape := ⟨2, ![1, 64]⟩

abbrev nBuf : Space → Nat
  | .hbm => 86
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x64, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x64, .f32⟩
  | .hbm, ⟨77, _⟩ => ⟨S3300000x1, .f32⟩
  | .hbm, ⟨78, _⟩ => ⟨S3300000x64, .f32⟩
  | .hbm, ⟨79, _⟩ => ⟨S3300000x64, .f32⟩
  | .hbm, ⟨80, _⟩ => ⟨S_, .f32⟩
  | .hbm, ⟨81, _⟩ => ⟨S100000x64, .f32⟩
  | .hbm, ⟨82, _⟩ => ⟨S3300000x1, .i32⟩
  | .hbm, ⟨83, _⟩ => ⟨S100000x64, .f32⟩
  | .hbm, ⟨84, _⟩ => ⟨S1x64, .f32⟩
  | .hbm, ⟨85, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x64_S16x64_0_0 : ∀ a, (![0, 0] : Fin 2 → Nat) a + S16x64.size a ≤ S16x64.size a
  h_S16x64 : 0 < S16x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x64_S5000x64_1_0_0_1_n_n_wf : DotDims.WF S5000x16 S16x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x64, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x64, .f32⟩
  | .hbm, ⟨82, _⟩ => ⟨S3300000x1, .f32⟩
  | .hbm, ⟨83, _⟩ => ⟨S3300000x64, .f32⟩
  | .hbm, ⟨84, _⟩ => ⟨S3300000x64, .f32⟩
  | .hbm, ⟨85, _⟩ => ⟨S_, .f32⟩
  | .hbm, ⟨86, _⟩ => ⟨S100000x64, .f32⟩
  | .hbm, ⟨87, _⟩ => ⟨S3300000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S_, .f32⟩
  | .hbm, ⟨98, _⟩ => ⟨S100000x64, .f32⟩
  | .hbm, ⟨99, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.Spec.lean ====
/-
  The three dense stages of a two-layer graph convolution, each as ONE function of whole arrays over the extended
  reals. Between them both programs gather rows along the edges, weigh them and sum them into their target nodes;
  these stages are what is computed per node:

  * `project x w`    : every node's 128 features through the first weight matrix, `(x · w) r j = ∑ₖ x r k · w k j`;
  * `hidden a b w`   : the aggregated 16 features plus the bias row, cut off below at zero, through the second weight
                       matrix, `∑ₖ max (a r k + b k) 0 · w k j`;
  * `squash a b`     : the aggregated 64 features plus the bias row through the logistic function.

  The bias is held as a row (a [1, n] array), which is how both programs present it to these stages.
-/
import Idealize.ShloMosaic.PureOps.Ideal
import Idealize.ShloMosaic.Lib.ValueIdx

noncomputable section

namespace Cert.Gcn

open Idealize.ShloMosaic Idealize.ShloMosaic.ValueIdx

/-- Node features: 100000 nodes, 128 channels. -/
abbrev SFeat : Shape := ⟨2, ![100000, 128]⟩
/-- First weight matrix. -/
abbrev SW1 : Shape := ⟨2, ![128, 16]⟩
/-- Hidden features: 16 channels per node. -/
abbrev SHid : Shape := ⟨2, ![100000, 16]⟩
/-- First bias, as a row. -/
abbrev SB1 : Shape := ⟨2, ![1, 16]⟩
/-- Second weight matrix. -/
abbrev SW2 : Shape := ⟨2, ![16, 64]⟩
/-- Output features: 64 channels per node. -/
abbrev SOut : Shape := ⟨2, ![100000, 64]⟩
/-- Second bias, as a row. -/
abbrev SB2 : Shape := ⟨2, ![1, 64]⟩

/-- The first linear map: row `r` of `x` against column `j` of `w`. -/
def project (x : FVec Ideal SFeat .f32) (w : FVec Ideal SW1 .f32) : FVec Ideal SHid .f32 :=
  fun i => ∑ k : Fin 128, x (ix2 (n0 := 100000) (n1 := 128) (i 0) k) * w (ix2 (n0 := 128) (n1 := 16) k (i 1))

/-- Bias, rectifier, second linear map: the rectified row `r` of `a + b` against column `j` of `w`. -/
def hidden (a : FVec Ideal SHid .f32) (b : FVec Ideal SB1 .f32) (w : FVec Ideal SW2 .f32) : FVec Ideal SOut .f32 :=
  fun i => ∑ k : Fin 16, max (a (ix2 (n0 := 100000) (n1 := 16) (i 0) k) + b (ix2 (n0 := 1) (n1 := 16) 0 k)) 0
    * w (ix2 (n0 := 16) (n1 := 64) k (i 1))

/-- Bias and logistic function, entry by entry. -/
def squash (a : FVec Ideal SOut .f32) (b : FVec Ideal SB2 .f32) : FVec Ideal SOut .f32 :=
  fun i => Ideal.logistic (a i + b (ix2 (n0 := 1) (n1 := 64) 0 (i 1)))

end Cert.Gcn

end
-- ==== Proof.Edges.lean ====
/-
  What both programs do along the EDGES of the graph, between the dense stages, as functions of the edge list
  `e : i32[2, 3200000]` (row 0 the sources, row 1 the targets) and of the node features `h`.

  * `sources e`, `targets e` : the edge list's two rows, each followed by the 100000 self loops `0, 1, …, 99999`;
  * `wrap r`                : an index read the way array indexing reads it, a negative one counted from the end;
  * `weights e`             : per edge `d⁻¹ᐟ²[source] · d⁻¹ᐟ²[target]`, `d` the number of edges into a node (at least the
                              self loop; the guard for `d = 0` is kept as the programs spell it);
  * `spread16 h e`, `spread64 h e` : every edge carries its source's row of `h`, scaled by the edge's weight, to its
                              target, where the rows are summed: `(Â h) v = ∑_{edges u→v} weight · h u`;
  * `row16 b`, `row64 b`    : a bias vector presented as a one-row matrix.

  Stated at any float family: nothing here is opened, only compared.
-/
import proofs.«119095_j27427661152768_1_alg».proof.Proof.Gen.KernelIdeal

noncomputable section

namespace Cert.KernelIdeal.Edges

open Cert.KernelIdeal Cert.KernelIdeal.Facts₀ Idealize.ShloMosaic

variable {F : FTy → Type} [FloatOps F]

/-- The self loops' node numbers. -/
def loops : IVec S100000 32 := iotaInDim S100000 32 0

/-- Row 0 of the edge list, then the self loops. -/
def sources (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, loops⟩] concatenates_S3200000_S100000_S3300000_d0

/-- Row 1 of the edge list, then the self loops. -/
def targets (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, loops⟩] concatenates_S3200000_S100000_S3300000_d0

/-- A negative index counts from the end: `r + 100000` where `r < 0`. -/
def wrap (r : IVec S3300000 32) : IVec S3300000 32 :=
  select (cmpi .slt r (broadcastInDim S3300000 ![] bcast_S_S3300000 (constantI S_ 32 0#32)))
    (addi r (broadcastInDim S3300000 ![] bcast_S_S3300000 (constantI S_ 32 100000#32))) r

/-- An index vector as the one-column matrix a gather or scatter takes. -/
def column (r : IVec S3300000 32) : IVec S3300000x1 32 := broadcastInDim S3300000x1 ![0] bcast_S3300000_S3300000x1_0 r

/-- Edges into each node, counted as a float. -/
def degree (e : IVec S2x3200000 32) : FVec F S100000 .f32 :=
  Host.scatterAdd scatter_S100000_S3300000x1_S3300000_n_0_0_1 (broadcastInDim S100000 ![] bcast_S_S100000 (constant S_ .f32 0x00000000#32))
    (column (targets e)) (broadcastInDim S3300000 ![] bcast_S_S3300000 (constant S_ .f32 0x3F800000#32))

/-- `d⁻¹ᐟ²` per node where `d > 0`, else `0`. -/
def invSqrt (e : IVec S2x3200000 32) : FVec F S100000 .f32 :=
  select (cmpf (F := F) .ogt (degree e) (broadcastInDim S100000 ![] bcast_S_S100000 (constant S_ .f32 0x00000000#32)))
    (Host.rsqrt (maximumf (degree e) (broadcastInDim S100000 ![] bcast_S_S100000 (constant S_ .f32 0x3F800000#32))))
    (broadcastInDim S100000 ![] bcast_S_S100000 (id (constant S_ .f32 0x00000000#32)))

/-- Per edge, the two ends' `d⁻¹ᐟ²` multiplied. -/
def weights (e : IVec S2x3200000 32) : FVec F S3300000 .f32 :=
  mulf (Host.gather gather_S100000_S3300000x1_S3300000_n_0_n_n_0_1_1 (invSqrt e) (column (wrap (sources e))))
    (Host.gather gather_S100000_S3300000x1_S3300000_n_0_n_n_0_1_1 (invSqrt e) (column (wrap (targets e))))

/-- Rows of 16 features gathered at the sources, weighed, summed at the targets. -/
def spread16 (h : FVec F S100000x16 .f32) (e : IVec S2x3200000 32) : FVec F S100000x16 .f32 :=
  Host.scatterAdd scatter_S100000x16_S3300000x1_S3300000x16_1_0_0_1 (broadcastInDim S100000x16 ![] bcast_S_S100000x16 (constant S_ .f32 0x00000000#32))
    (column (targets e))
    (mulf (Host.gather gather_S100000x16_S3300000x1_S3300000x16_1_0_n_n_0_1_116 h (column (wrap (sources e))))
      (broadcastInDim S3300000x16 ![0, 1] bcast_S3300000x1_S3300000x16_0_1 (broadcastInDim S3300000x1 ![0] bcast_S3300000_S3300000x1_0 (weights e))))

/-- Rows of 64 features gathered at the sources, weighed, summed at the targets. -/
def spread64 (h : FVec F S100000x64 .f32) (e : IVec S2x3200000 32) : FVec F S100000x64 .f32 :=
  Host.scatterAdd scatter_S100000x64_S3300000x1_S3300000x64_1_0_0_1 (broadcastInDim S100000x64 ![] bcast_S_S100000x64 (constant S_ .f32 0x00000000#32))
    (column (targets e))
    (mulf (Host.gather gather_S100000x64_S3300000x1_S3300000x64_1_0_n_n_0_1_164 h (column (wrap (sources e))))
      (broadcastInDim S3300000x64 ![0, 1] bcast_S3300000x1_S3300000x64_0_1 (broadcastInDim S3300000x1 ![0] bcast_S3300000_S3300000x1_0 (weights e))))

/-- The first bias as a one-row matrix. -/
def row16 (b : FVec F S16 .f32) : FVec F S1x16 .f32 := shapeCast S1x16 b shapeCasts_S16_S1x16

/-- The second bias as a one-row matrix. -/
def row64 (b : FVec F S64 .f32) : FVec F S1x64 .f32 := shapeCast S1x64 b shapeCasts_S64_S1x64

end Cert.KernelIdeal.Edges

end
-- ==== Proof.Project.lean ====
/-
  The first dense stage, `h₁ = x · W₁`, as the kernel computes it: twenty row blocks of 5000 nodes, each block's
  128 features multiplied into the whole 128 × 16 weight matrix (both narrowed to bf16 first, which over the
  extended reals changes nothing) and written to the same rows of the output. Row `r` of block `t` is row
  `5000 t + r` of the array, the blocks cover the 100000 rows, and so the output array is the product of the whole
  arrays: entry `(r, j)` is `∑ₖ x r k · W₁ k j`.
-/
import proofs.«119095_j27427661152768_1_alg».proof.Proof.Gen.KernelIdeal.Frame
import proofs.«119095_j27427661152768_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Project

open Cert.KernelIdeal Cert.KernelIdeal.Gen
open Idealize.ShloMosaic Idealize.ShloMosaic.TcCoe Idealize.ShloMosaic.ValueIdx Idealize.SL.Sem

/-! ## The block product at an index -/

/-- The left operand of the block product is read at the output's row … -/
theorem lhs_row (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
/-- … and at the contracted index; -/
theorem lhs_contr (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
/-- the right operand at the contracted index … -/
theorem rhs_contr (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
/-- … and at the output's column. -/
theorem rhs_col (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- What the body stores, at an index of the block: the row of the node block against the column of the weights. -/
theorem block_apply (x0 : Vec Ideal S5000x128 .f32) (x1 : Vec Ideal S128x16 .f32) (j : S5000x16.Idx) :
    k0_pay1 (F := Ideal) x0 x1 j
      = ∑ k : Fin 128, x0 (ix2 (n0 := 5000) (n1 := 128) (j 0) k) * x1 (ix2 (n0 := 128) (n1 := 16) k (j 1)) := by
  unfold k0_pay1
  simp only [matmul]
  rw [Ideal.matmul_constant_zero_apply, ← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx j ((contrEquiv1 dot_S5000x128_S128x16_S5000x16_1_0_0_1_n_n 128 rfl rfl).symm k) = ix2 (n0 := 5000) (n1 := 128) (j 0) k := funext fun a => Fin.ext (by
    match a with
    | ⟨0, _⟩ => exact lhs_row _ _
    | ⟨1, _⟩ => exact (lhs_contr _ _).trans hk)
  have er : dot_S5000x128_S128x16_S5000x16_1_0_0_1_n_n.rhsIdx j ((contrEquiv1 dot_S5000x128_S128x16_S5000x16_1_0_0_1_n_n 128 rfl rfl).symm k) = ix2 (n0 := 128) (n1 := 16) k (j 1) := funext fun a => Fin.ext (by
    match a with
    | ⟨0, _⟩ => exact (rhs_contr _ _).trans hk
    | ⟨1, _⟩ => exact rhs_col _ _)
  rw [el, er]
  rfl

/-! ## From the blocks to the array -/

theorem origin : (![0, 0] : Fin 2 → Nat) = fun _ => 0 := funext fun a => by fin_cases a <;> rfl

/-- The printed index maps, decided over the twenty points: the node block and the output block move together down
    the rows, the weight matrix stays, no block moves along the columns. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block is some point's. -/
theorem every_block : ∀ q : Fin 20, ∃ t : Fin cfg0.N, win0_2.index t = ![q.val, 0] :=
  (by decide +kernel : ∀ q : Fin 20, ∃ t : Fin grid0.N, win0_2.index t = ![q.val, 0])

variable (V : (c : Dev nD) → (b : Ref sig .tc) → Buf (Elt Ideal) ((c : Thread nD τ).loc b))

/-- The node features as the stage finds them, at their literal type. -/
abbrev feats (c : Dev nD) : FVec Ideal S100000x128 .f32 := V c main_arg0
/-- The first weight matrix as the stage finds it, at its literal type. -/
abbrev wts (c : Dev nD) : FVec Ideal S128x16 .f32 := V c main_arg2

/-- What point `t` writes back is block `t` of the product of the whole arrays. -/
theorem flushed_eq (c : Dev nD) (t : Fin cfg0.N) :
    (dat0 (F := Ideal) V c).flushed 2 t
      = ((cfg0.win 2).blk t).view.read (Elt Ideal) (Cert.Gcn.project (V c main_arg0) (V c main_arg2)) := by
  show (cfg0.win 2).cut (grid0.coords t) ((dat0 (F := Ideal) V c).after 2 t) = _
  rw [after0_2]
  unfold out0_2
  rw [View.canon_unit_zero origin]
  simp only [View.ld_unit_zero (S := S5000x128) origin, View.ld_unit_zero (S := S128x16) origin]
  obtain ⟨e0, e1, e2, e3, e4, e5⟩ := index_maps t
  funext j
  show k0_pay1 (F := Ideal) (iblk0 V c 0 t) (iblk0 V c 1 t) j
    = Cert.Gcn.project (V c main_arg0) (V c main_arg2) (((cfg0.win 2).blk t).view.emb j)
  refine (block_apply (iblk0 V c 0 t) (iblk0 V c 1 t) j).trans ?_
  unfold Cert.Gcn.project
  refine Finset.sum_congr rfl fun k _ => ?_
  have h0 : ((cfg0.win 0).blk t).view.emb (ix2 (n0 := 5000) (n1 := 128) (j 0) k)
      = ix2 (n0 := 100000) (n1 := 128) ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 (n0 := 128) (n1 := 16) k (j 1))
      = ix2 (n0 := 128) (n1 := 16) k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 16 + 1 * (j 1).val = win0_2.index t (1 : Fin 2) * 16 + 1 * (j 1).val; omega
  show feats V c (((cfg0.win 0).blk t).view.emb (ix2 (n0 := 5000) (n1 := 128) (j 0) k))
      * wts V c (((cfg0.win 1).blk t).view.emb (ix2 (n0 := 128) (n1 := 16) k (j 1))) = _
  rw [h0, h1]

/-- An index of the output array is in point `t`'s block iff each coordinate is in the block's range on its axis. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v32).slice (win0_2.rect t)).set ↔ _
  rw [View.set_slice_whole, Rect.mem_set_unit]
  exact Iff.rfl

/-- The blocks cover the array: row `r` is in block `r / 5000`. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := every_block ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- After the first stage's twenty row blocks are written back, its output array is the first linear map of the
    arrays the stage was entered with. -/
theorem array_eq (c : Dev nD) :
    (dat0 (F := Ideal) V c).arrAt 2 cfg0.N = Cert.Gcn.project (V c main_arg0) (V c main_arg2) :=
  (dat0 (F := Ideal) V c).arrAt_eq_of_cover 2 _ (fun t _ => flushed_eq V c t) covered

end Cert.KernelIdeal.Project

end
-- ==== Proof.Hidden.lean ====
/-
  The second dense stage, `h₂ = max (a + b₁) 0 · W₂`, as the kernel computes it: twenty row blocks of 5000 nodes;
  to each block of the aggregated features the bias row is added (broadcast down the rows), the sum is cut off
  below at zero, and the result is multiplied into the whole 16 × 64 weight matrix (both narrowed to bf16 first,
  which over the extended reals changes nothing). Row `r` of block `t` is row `5000 t + r` of the array, the
  blocks cover the 100000 rows, and so the output array's entry `(r, j)` is `∑ₖ max (a r k + b₁ k) 0 · W₂ k j`.
-/
import proofs.«119095_j27427661152768_1_alg».proof.Proof.Gen.KernelIdeal.Frame
import proofs.«119095_j27427661152768_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hidden

open Cert.KernelIdeal Cert.KernelIdeal.Gen
open Idealize.ShloMosaic Idealize.ShloMosaic.TcCoe Idealize.ShloMosaic.ValueIdx Idealize.SL.Sem

/-! ## The block product at an index -/

/-- The left operand of the block product is read at the output's row … -/
theorem lhs_row (i : S5000x64.Idx) (q : dot_S5000x16_S16x64_S5000x64_1_0_0_1_n_n.contr.Idx) :
    (dot_S5000x16_S16x64_S5000x64_1_0_0_1_n_n.lhsIdx i q 0).val = (i 0).val := by
  unfold DotDims.lhsIdx
  rw [dif_neg (show ¬(0 : Fin S5000x16.rank) ∈ dot_S5000x16_S16x64_S5000x64_1_0_0_1_n_n.lhsBatch by decide), dif_pos (show (0 : Fin S5000x16.rank) ∈ dot_S5000x16_S16x64_S5000x64_1_0_0_1_n_n.lhsNonContracting by decide)]
  rfl
/-- … and at the contracted index; -/
theorem lhs_contr (i : S5000x64.Idx) (q : dot_S5000x16_S16x64_S5000x64_1_0_0_1_n_n.contr.Idx) :
    (dot_S5000x16_S16x64_S5000x64_1_0_0_1_n_n.lhsIdx i q 1).val = (q ⟨0, by decide⟩).val :=
  dot_S5000x16_S16x64_S5000x64_1_0_0_1_n_n.lhsIdx_val_of_single rfl i q
/-- the right operand at the contracted index … -/
theorem rhs_contr (i : S5000x64.Idx) (q : dot_S5000x16_S16x64_S5000x64_1_0_0_1_n_n.contr.Idx) :
    (dot_S5000x16_S16x64_S5000x64_1_0_0_1_n_n.rhsIdx i q 0).val = (q ⟨0, by decide⟩).val :=
  dot_S5000x16_S16x64_S5000x64_1_0_0_1_n_n.rhsIdx_val_of_single rfl i q
/-- … and at the output's column. -/
theorem rhs_col (i : S5000x64.Idx) (q : dot_S5000x16_S16x64_S5000x64_1_0_0_1_n_n.contr.Idx) :
    (dot_S5000x16_S16x64_S5000x64_1_0_0_1_n_n.rhsIdx i q 1).val = (i 1).val := by
  unfold DotDims.rhsIdx
  rw [dif_neg (show ¬(1 : Fin S16x64.rank) ∈ dot_S5000x16_S16x64_S5000x64_1_0_0_1_n_n.rhsBatch by decide), dif_pos (show (1 : Fin S16x64.rank) ∈ dot_S5000x16_S16x64_S5000x64_1_0_0_1_n_n.rhsNonContracting by decide)]
  rfl

/-- The left factor of the product at an index: the aggregate plus the bias row, cut off below at zero. -/
theorem rectified_apply (x0 : Vec Ideal S5000x16 .f32) (x1 : Vec Ideal S1x16 .f32) (p : Fin 5000) (k : Fin 16) :
    (maximumf (addf (shapeCast S5000x16 x0 Facts₀.shapeCasts_S5000x16_S5000x16)
        (broadcastTo S5000x16 (shapeCast S1x16 x1 Facts₀.shapeCasts_S1x16_S1x16) Facts₀.broadcasts_S1x16_S5000x16))
      (broadcast S5000x16 (Scalar.ofBits (F := Ideal) .f32 0x00000000#32)) : FVec Ideal S5000x16 .f32) (ix2 (n0 := 5000) (n1 := 16) p k)
      = max (x0 (ix2 (n0 := 5000) (n1 := 16) p k) + x1 (ix2 (n0 := 1) (n1 := 16) 0 k)) 0 := by
  rw [shapeCast_self, shapeCast_self]
  show max (x0 (ix2 (n0 := 5000) (n1 := 16) p k) + broadcastTo S5000x16 x1 Facts₀.broadcasts_S1x16_S5000x16 (ix2 (n0 := 5000) (n1 := 16) p k))
    (Ideal.ofBits .f32 0x00000000#32) = _
  rw [Ideal.ofBits_zero_f32, broadcastTo_1b_ab_apply]

/-- What the body stores, at an index of the block. -/
theorem block_apply (x0 : Vec Ideal S5000x16 .f32) (x1 : Vec Ideal S1x16 .f32) (x2 : Vec Ideal S16x64 .f32) (j : S5000x64.Idx) :
    k1_pay1 (F := Ideal) x0 x1 x2 j
      = ∑ k : Fin 16, max (x0 (ix2 (n0 := 5000) (n1 := 16) (j 0) k) + x1 (ix2 (n0 := 1) (n1 := 16) 0 k)) 0
          * x2 (ix2 (n0 := 16) (n1 := 64) k (j 1)) := by
  unfold k1_pay1
  simp only [matmul]
  rw [Ideal.matmul_constant_zero_apply, ← Equiv.sum_comp (contrEquiv1 dot_S5000x16_S16x64_S5000x64_1_0_0_1_n_n 16 rfl rfl).symm]
  refine Finset.sum_congr rfl fun k _ => ?_
  have hk := contrEquiv1_symm_val dot_S5000x16_S16x64_S5000x64_1_0_0_1_n_n 16 rfl rfl k
  have el : dot_S5000x16_S16x64_S5000x64_1_0_0_1_n_n.lhsIdx j ((contrEquiv1 dot_S5000x16_S16x64_S5000x64_1_0_0_1_n_n 16 rfl rfl).symm k) = ix2 (n0 := 5000) (n1 := 16) (j 0) k := funext fun a => Fin.ext (by
    match a with
    | ⟨0, _⟩ => exact lhs_row _ _
    | ⟨1, _⟩ => exact (lhs_contr _ _).trans hk)
  have er : dot_S5000x16_S16x64_S5000x64_1_0_0_1_n_n.rhsIdx j ((contrEquiv1 dot_S5000x16_S16x64_S5000x64_1_0_0_1_n_n 16 rfl rfl).symm k) = ix2 (n0 := 16) (n1 := 64) k (j 1) := funext fun a => Fin.ext (by
    match a with
    | ⟨0, _⟩ => exact (rhs_contr _ _).trans hk
    | ⟨1, _⟩ => exact rhs_col _ _)
  rw [el, er]
  exact congrArg (· * x2 (ix2 (n0 := 16) (n1 := 64) k (j 1))) (rectified_apply x0 x1 (j 0) k)

/-! ## From the blocks to the array -/

theorem origin : (![0, 0] : Fin 2 → Nat) = fun _ => 0 := funext fun a => by fin_cases a <;> rfl

/-- The printed index maps, decided over the twenty points: the aggregate's block and the output block move together
    down the rows, the bias row and the weight matrix stay, no block moves along the columns. -/
theorem index_maps : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 19 :=
  (by decide +kernel : ∀ t : Fin grid1.N, _)

/-- Every row block is some point's. -/
theorem every_block : ∀ q : Fin 20, ∃ t : Fin cfg1.N, win1_3.index t = ![q.val, 0] :=
  (by decide +kernel : ∀ q : Fin 20, ∃ t : Fin grid1.N, win1_3.index t = ![q.val, 0])

variable (V : (c : Dev nD) → (b : Ref sig .tc) → Buf (Elt Ideal) ((c : Thread nD τ).loc b))

/-- The aggregated features as the stage finds them, at their literal type. -/
abbrev agg (c : Dev nD) : FVec Ideal S100000x16 .f32 := V c main_v45
/-- The bias row as the stage finds it. -/
abbrev bias (c : Dev nD) : FVec Ideal S1x16 .f32 := V c main_v46
/-- The second weight matrix as the stage finds it. -/
abbrev wts (c : Dev nD) : FVec Ideal S16x64 .f32 := V c main_arg4

/-- What point `t` writes back is block `t` of the stage's function of the whole arrays. -/
theorem flushed_eq (c : Dev nD) (t : Fin cfg1.N) :
    (dat1 (F := Ideal) V c).flushed 3 t
      = ((cfg1.win 3).blk t).view.read (Elt Ideal) (Cert.Gcn.hidden (V c main_v45) (V c main_v46) (V c main_arg4)) := by
  show (cfg1.win 3).cut (grid1.coords t) ((dat1 (F := Ideal) V c).after 3 t) = _
  rw [after1_3]
  unfold out1_3
  rw [View.canon_unit_zero origin]
  simp only [View.ld_unit_zero (S := S5000x16) origin, View.ld_unit_zero (S := S1x16) origin, View.ld_unit_zero (S := S16x64) origin]
  obtain ⟨e0, e1, e2, e3, e4, e5, e6, e7⟩ := index_maps t
  funext j
  show k1_pay1 (F := Ideal) (iblk1 V c 0 t) (iblk1 V c 1 t) (iblk1 V c 2 t) j
    = Cert.Gcn.hidden (V c main_v45) (V c main_v46) (V c main_arg4) (((cfg1.win 3).blk t).view.emb j)
  refine (block_apply (iblk1 V c 0 t) (iblk1 V c 1 t) (iblk1 V c 2 t) j).trans ?_
  unfold Cert.Gcn.hidden
  refine Finset.sum_congr rfl fun k _ => ?_
  have h0 : ((cfg1.win 0).blk t).view.emb (ix2 (n0 := 5000) (n1 := 16) (j 0) k)
      = ix2 (n0 := 100000) (n1 := 16) ((((cfg1.win 3).blk t).view.emb j) 0) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 16 + 1 * k.val = k.val; omega
  have h1 : ((cfg1.win 1).blk t).view.emb (ix2 (n0 := 1) (n1 := 16) 0 k) = ix2 (n0 := 1) (n1 := 16) 0 k := by
    funext a; apply Fin.ext
    match a with
    | ⟨0, _⟩ => show win1_1.index t (0 : Fin 2) * 1 + 1 * 0 = 0; omega
    | ⟨1, _⟩ => show win1_1.index t (1 : Fin 2) * 16 + 1 * k.val = k.val; omega
  have h2 : ((cfg1.win 2).blk t).view.emb (ix2 (n0 := 16) (n1 := 64) k (j 1))
      = ix2 (n0 := 16) (n1 := 64) k ((((cfg1.win 3).blk t).view.emb j) 1) := by
    funext a; apply Fin.ext
    match a with
    | ⟨0, _⟩ => show win1_2.index t (0 : Fin 2) * 16 + 1 * k.val = k.val; omega
    | ⟨1, _⟩ => show win1_2.index t (1 : Fin 2) * 64 + 1 * (j 1).val = win1_3.index t (1 : Fin 2) * 64 + 1 * (j 1).val; omega
  show max (agg V c (((cfg1.win 0).blk t).view.emb (ix2 (n0 := 5000) (n1 := 16) (j 0) k))
        + bias V c (((cfg1.win 1).blk t).view.emb (ix2 (n0 := 1) (n1 := 16) 0 k))) 0
      * wts V c (((cfg1.win 2).blk t).view.emb (ix2 (n0 := 16) (n1 := 64) k (j 1))) = _
  rw [h0, h1, h2]

/-- An index of the output array is in point `t`'s block iff each coordinate is in the block's range on its axis. -/
theorem mem_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v47).slice (win1_3.rect t)).set ↔ _
  rw [View.set_slice_whole, Rect.mem_set_unit]
  exact Iff.rfl

/-- The blocks cover the array: row `r` is in block `r / 5000`. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := every_block ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the second stage's twenty row blocks are written back, its output array is the stage's function of the
    arrays the stage was entered with. -/
theorem array_eq (c : Dev nD) :
    (dat1 (F := Ideal) V c).arrAt 3 cfg1.N = Cert.Gcn.hidden (V c main_v45) (V c main_v46) (V c main_arg4) :=
  (dat1 (F := Ideal) V c).arrAt_eq_of_cover 3 _ (fun t _ => flushed_eq V c t) covered

end Cert.KernelIdeal.Hidden

end
-- ==== Proof.Squash.lean ====
/-
  The third dense stage, `out = σ (a + b₂)`, as the kernel computes it: twenty row blocks of 5000 nodes; to each
  block of the aggregated features the bias row is added (broadcast down the rows) and the logistic function is
  applied entry by entry. Row `r` of block `t` is row `5000 t + r` of the array and the blocks cover the 100000
  rows, so the output array's entry `(r, j)` is `σ (a r j + b₂ j)`.
-/
import proofs.«119095_j27427661152768_1_alg».proof.Proof.Gen.KernelIdeal.Frame
import proofs.«119095_j27427661152768_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Squash

open Cert.KernelIdeal Cert.KernelIdeal.Gen
open Idealize.ShloMosaic Idealize.ShloMosaic.TcCoe Idealize.ShloMosaic.ValueIdx Idealize.SL.Sem

/-- What the body stores, at an index of the block: the logistic function of the aggregate plus the bias of the
    index's column. -/
theorem block_apply (x0 : Vec Ideal S5000x64 .f32) (x1 : Vec Ideal S1x64 .f32) (j : S5000x64.Idx) :
    k2_pay1 (F := Ideal) x0 x1 j = Ideal.logistic (x0 j + x1 (ix2 (n0 := 1) (n1 := 64) 0 (j 1))) := by
  obtain ⟨p, q, rfl⟩ : ∃ (p : Fin 5000) (q : Fin 64), j = ix2 p q := ⟨j 0, j 1, eq_ix2 j⟩
  unfold k2_pay1
  rw [shapeCast_self, shapeCast_self]
  show Ideal.logistic (x0 (ix2 (n0 := 5000) (n1 := 64) p q)
    + broadcastTo S5000x64 x1 Facts₀.broadcasts_S1x64_S5000x64 (ix2 (n0 := 5000) (n1 := 64) p q)) = _
  rw [broadcastTo_1b_ab_apply]

/-! ## From the blocks to the array -/

theorem origin : (![0, 0] : Fin 2 → Nat) = fun _ => 0 := funext fun a => by fin_cases a <;> rfl

/-- The printed index maps, decided over the twenty points: the aggregate's block and the output block move together
    down the rows, the bias row stays, no block moves along the columns. -/
theorem index_maps : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every row block is some point's. -/
theorem every_block : ∀ q : Fin 20, ∃ t : Fin cfg2.N, win2_2.index t = ![q.val, 0] :=
  (by decide +kernel : ∀ q : Fin 20, ∃ t : Fin grid2.N, win2_2.index t = ![q.val, 0])

variable (V : (c : Dev nD) → (b : Ref sig .tc) → Buf (Elt Ideal) ((c : Thread nD τ).loc b))

/-- The aggregated features as the stage finds them, at their literal type. -/
abbrev agg (c : Dev nD) : FVec Ideal S100000x64 .f32 := V c main_v60
/-- The bias row as the stage finds it. -/
abbrev bias (c : Dev nD) : FVec Ideal S1x64 .f32 := V c main_v61

/-- What point `t` writes back is block `t` of the stage's function of the whole arrays. -/
theorem flushed_eq (c : Dev nD) (t : Fin cfg2.N) :
    (dat2 (F := Ideal) V c).flushed 2 t
      = ((cfg2.win 2).blk t).view.read (Elt Ideal) (Cert.Gcn.squash (V c main_v60) (V c main_v61)) := by
  show (cfg2.win 2).cut (grid2.coords t) ((dat2 (F := Ideal) V c).after 2 t) = _
  rw [after2_2]
  unfold out2_2
  rw [View.canon_unit_zero origin]
  simp only [View.ld_unit_zero (S := S5000x64) origin, View.ld_unit_zero (S := S1x64) origin]
  obtain ⟨e0, e1, e2, e3, e4, e5⟩ := index_maps t
  funext j
  show k2_pay1 (F := Ideal) (iblk2 V c 0 t) (iblk2 V c 1 t) j
    = Cert.Gcn.squash (V c main_v60) (V c main_v61) (((cfg2.win 2).blk t).view.emb j)
  refine (block_apply (iblk2 V c 0 t) (iblk2 V c 1 t) j).trans ?_
  unfold Cert.Gcn.squash
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (n0 := 1) (n1 := 64) 0 (j 1))
      = ix2 (n0 := 1) (n1 := 64) 0 ((((cfg2.win 2).blk t).view.emb j) 1) := by
    funext a; apply Fin.ext
    match a with
    | ⟨0, _⟩ => show win2_1.index t (0 : Fin 2) * 1 + 1 * 0 = 0; omega
    | ⟨1, _⟩ => show win2_1.index t (1 : Fin 2) * 64 + 1 * (j 1).val = win2_2.index t (1 : Fin 2) * 64 + 1 * (j 1).val; omega
  show Ideal.logistic (agg V c (((cfg2.win 0).blk t).view.emb j)
      + bias V c (((cfg2.win 1).blk t).view.emb (ix2 (n0 := 1) (n1 := 64) 0 (j 1)))) = _
  rw [h0, h1]

/-- An index of the output array is in point `t`'s block iff each coordinate is in the block's range on its axis. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v62).slice (win2_2.rect t)).set ↔ _
  rw [View.set_slice_whole, Rect.mem_set_unit]
  exact Iff.rfl

/-- The blocks cover the array: row `r` is in block `r / 5000`. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := every_block ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the third stage's twenty row blocks are written back, its output array is the stage's function of the
    arrays the stage was entered with. -/
theorem array_eq (c : Dev nD) :
    (dat2 (F := Ideal) V c).arrAt 2 cfg2.N = Cert.Gcn.squash (V c main_v60) (V c main_v61) :=
  (dat2 (F := Ideal) V c).arrAt_eq_of_cover 2 _ (fun t _ => flushed_eq V c t) covered

end Cert.KernelIdeal.Squash

end
-- ==== Proof.HostFold.lean ====
/-
  The contents of the buffers each dense stage is entered with, read back through the host operations and the earlier
  stages' write-backs to the launch memory: every stage finds the edge list's derived arrays (sources, targets,
  weights) as the first host stretch computed them, because nothing later writes them.
-/
import proofs.«119095_j27427661152768_1_alg».proof.Proof.Gen.KernelIdeal.Frame
import proofs.«119095_j27427661152768_1_alg».proof.Proof.Edges
import Idealize.ShloMosaic.Lib.StableHlo.Run

set_option maxRecDepth 16384

noncomputable section

namespace Cert.KernelIdeal.HostFold

open Cert.KernelIdeal Cert.KernelIdeal.Gen Cert.KernelIdeal.Edges
open Idealize.ShloMosaic Idealize.ShloMosaic.TcCoe Idealize.SL.Sem

variable {F : FTy → Type} [FloatOps F]

/-! ## A stretch of host operations leaves alone the buffers it does not write -/

/-- Closes `after ops V b = V b` for a buffer `b` that no operation of the stretch `ops` writes: the written
    buffers are listed one by one and each differs from `b`. -/
local macro "unwritten" : tactic =>
  `(tactic| exact StableHlo.after_of_forall_not_mem _ _ (List.forall_iff_forall_mem.mp (by
      simp only [hostOps0, hostOps0_1, hostOps0_2, hostOps1, hostOps2, List.flatten_cons, List.flatten_nil, List.append_nil,
        List.cons_append, List.nil_append, List.Forall, StableHlo.nullary_writes, StableHlo.unary_writes,
        StableHlo.binary_writes, StableHlo.ternary_writes, StableHlo.quaternary_writes, StableHlo.reshape_writes,
        StableHlo.binaryIndexed_writes, Finset.mem_singleton]
      repeat' apply And.intro
      all_goals exact StableHlo.devRef_ne_of_ne (by decide))))

/-! ## What each stretch computes, from ANY contents `V` it is entered with

Each lemma reads one result buffer of a stretch as the stretch's operations applied to the contents, at entry, of the
buffers the stretch reads but does not write. -/

section Stretch

variable (V : Valuation τ sig (Elt F))

/-- The first stretch builds the sources: row 0 of the edge list, then the self loops. -/
theorem ops0_v3 : StableHlo.after hostOps0 V (Proc.devRef .tc main_v3) = sources (V (Proc.devRef .tc main_arg1)) := by
  after_results
  rfl

/-- The first stretch builds the targets: row 1 of the edge list, then the self loops. -/
theorem ops0_v6 : StableHlo.after hostOps0 V (Proc.devRef .tc main_v6) = targets (V (Proc.devRef .tc main_arg1)) := by
  after_results
  rfl

/-- The first stretch's test `d > 0` on the degrees. -/
theorem ops0_v12 : StableHlo.after hostOps0 V (Proc.devRef .tc main_v12)
    = cmpf (F := F) .ogt (degree (V (Proc.devRef .tc main_arg1))) (broadcastInDim S100000 ![] bcast_S_S100000 (constant S_ .f32 0x00000000#32)) := by
  after_results
  rfl

/-- The first stretch's `1 / √(max d 1)`. -/
theorem ops0_v15 : StableHlo.after hostOps0 V (Proc.devRef .tc main_v15)
    = Host.rsqrt (maximumf (degree (F := F) (V (Proc.devRef .tc main_arg1))) (broadcastInDim S100000 ![] bcast_S_S100000 (constant S_ .f32 0x3F800000#32))) := by
  after_results
  rfl

/-- The first stretch's last constant, the zero the guard falls back to. -/
theorem ops0_cst3 : StableHlo.after hostOps0 V (Proc.devRef .tc main_cst_3) = (constant S_ .f32 0x00000000#32 : FVec F S_ .f32) := by
  after_results

/-- The guard's stretch selects, node by node, between the inverse square root and zero. -/
theorem ops01_v16 : StableHlo.after hostOps0_1 V (Proc.devRef .tc main_v16)
    = select (V (Proc.devRef .tc main_v12)) (V (Proc.devRef .tc main_v15))
        (broadcastInDim S100000 ![] bcast_S_S100000 (id (V (Proc.devRef .tc main_cst_3)))) := by
  after_results
  rfl

theorem ops01_keep_v3 : StableHlo.after hostOps0_1 V (Proc.devRef .tc main_v3) = V (Proc.devRef .tc main_v3) := by unwritten
theorem ops01_keep_v6 : StableHlo.after hostOps0_1 V (Proc.devRef .tc main_v6) = V (Proc.devRef .tc main_v6) := by unwritten

/-- The third stretch multiplies, edge by edge, the two ends' entries of `main_v16`. -/
theorem ops02_v31 : StableHlo.after hostOps0_2 V (Proc.devRef .tc main_v31)
    = mulf (Host.gather gather_S100000_S3300000x1_S3300000_n_0_n_n_0_1_1 (V (Proc.devRef .tc main_v16)) (column (wrap (V (Proc.devRef .tc main_v3)))))
        (Host.gather gather_S100000_S3300000x1_S3300000_n_0_n_n_0_1_1 (V (Proc.devRef .tc main_v16)) (column (wrap (V (Proc.devRef .tc main_v6))))) := by
  after_results_simp
  rfl

theorem ops02_keep_v3 : StableHlo.after hostOps0_2 V (Proc.devRef .tc main_v3) = V (Proc.devRef .tc main_v3) := by unwritten
theorem ops02_keep_v6 : StableHlo.after hostOps0_2 V (Proc.devRef .tc main_v6) = V (Proc.devRef .tc main_v6) := by unwritten

theorem ops02_keep_arg0 : StableHlo.after hostOps0_2 V (Proc.devRef .tc main_arg0) = V (Proc.devRef .tc main_arg0) := by unwritten
theorem ops02_keep_arg2 : StableHlo.after hostOps0_2 V (Proc.devRef .tc main_arg2) = V (Proc.devRef .tc main_arg2) := by unwritten
theorem ops01_keep_arg0 : StableHlo.after hostOps0_1 V (Proc.devRef .tc main_arg0) = V (Proc.devRef .tc main_arg0) := by unwritten
theorem ops01_keep_arg2 : StableHlo.after hostOps0_1 V (Proc.devRef .tc main_arg2) = V (Proc.devRef .tc main_arg2) := by unwritten
theorem ops0_keep_arg0 : StableHlo.after hostOps0 V (Proc.devRef .tc main_arg0) = V (Proc.devRef .tc main_arg0) := by unwritten
theorem ops0_keep_arg2 : StableHlo.after hostOps0 V (Proc.devRef .tc main_arg2) = V (Proc.devRef .tc main_arg2) := by unwritten

/-- The stretch before the second stage: every edge carries its source's row of `main_v32`, scaled by the edge's
    entry of `main_v31`, to its target, where the rows are summed. -/
theorem ops1_v45 : StableHlo.after hostOps1 V (Proc.devRef .tc main_v45)
    = Host.scatterAdd scatter_S100000x16_S3300000x1_S3300000x16_1_0_0_1
        (broadcastInDim S100000x16 ![] bcast_S_S100000x16 (constant S_ .f32 0x00000000#32))
        (column (V (Proc.devRef .tc main_v6)))
        (mulf (Host.gather gather_S100000x16_S3300000x1_S3300000x16_1_0_n_n_0_1_116 (V (Proc.devRef .tc main_v32))
                (column (wrap (V (Proc.devRef .tc main_v3)))))
          (broadcastInDim S3300000x16 ![0, 1] bcast_S3300000x1_S3300000x16_0_1
            (broadcastInDim S3300000x1 ![0] bcast_S3300000_S3300000x1_0 (V (Proc.devRef .tc main_v31))))) := by
  after_results_simp
  rfl

/-- The same stretch presents the first bias as a one-row matrix. -/
theorem ops1_v46 : StableHlo.after hostOps1 V (Proc.devRef .tc main_v46) = row16 (V (Proc.devRef .tc main_arg3)) := by
  after_results
  rfl

theorem ops1_keep_arg4 : StableHlo.after hostOps1 V (Proc.devRef .tc main_arg4) = V (Proc.devRef .tc main_arg4) := by unwritten
theorem ops1_keep_v3 : StableHlo.after hostOps1 V (Proc.devRef .tc main_v3) = V (Proc.devRef .tc main_v3) := by unwritten
theorem ops1_keep_v6 : StableHlo.after hostOps1 V (Proc.devRef .tc main_v6) = V (Proc.devRef .tc main_v6) := by unwritten
theorem ops1_keep_v31 : StableHlo.after hostOps1 V (Proc.devRef .tc main_v31) = V (Proc.devRef .tc main_v31) := by unwritten
theorem ops1_keep_arg5 : StableHlo.after hostOps1 V (Proc.devRef .tc main_arg5) = V (Proc.devRef .tc main_arg5) := by unwritten
theorem ops02_keep_arg3 : StableHlo.after hostOps0_2 V (Proc.devRef .tc main_arg3) = V (Proc.devRef .tc main_arg3) := by unwritten
theorem ops01_keep_arg3 : StableHlo.after hostOps0_1 V (Proc.devRef .tc main_arg3) = V (Proc.devRef .tc main_arg3) := by unwritten
theorem ops0_keep_arg3 : StableHlo.after hostOps0 V (Proc.devRef .tc main_arg3) = V (Proc.devRef .tc main_arg3) := by unwritten
theorem ops02_keep_arg4 : StableHlo.after hostOps0_2 V (Proc.devRef .tc main_arg4) = V (Proc.devRef .tc main_arg4) := by unwritten
theorem ops01_keep_arg4 : StableHlo.after hostOps0_1 V (Proc.devRef .tc main_arg4) = V (Proc.devRef .tc main_arg4) := by unwritten
theorem ops0_keep_arg4 : StableHlo.after hostOps0 V (Proc.devRef .tc main_arg4) = V (Proc.devRef .tc main_arg4) := by unwritten
theorem ops02_keep_arg5 : StableHlo.after hostOps0_2 V (Proc.devRef .tc main_arg5) = V (Proc.devRef .tc main_arg5) := by unwritten
theorem ops01_keep_arg5 : StableHlo.after hostOps0_1 V (Proc.devRef .tc main_arg5) = V (Proc.devRef .tc main_arg5) := by unwritten
theorem ops0_keep_arg5 : StableHlo.after hostOps0 V (Proc.devRef .tc main_arg5) = V (Proc.devRef .tc main_arg5) := by unwritten

/-- The stretch before the third stage: the same along the edges, on rows of 64 features. -/
theorem ops2_v60 : StableHlo.after hostOps2 V (Proc.devRef .tc main_v60)
    = Host.scatterAdd scatter_S100000x64_S3300000x1_S3300000x64_1_0_0_1
        (broadcastInDim S100000x64 ![] bcast_S_S100000x64 (constant S_ .f32 0x00000000#32))
        (column (V (Proc.devRef .tc main_v6)))
        (mulf (Host.gather gather_S100000x64_S3300000x1_S3300000x64_1_0_n_n_0_1_164 (V (Proc.devRef .tc main_v47))
                (column (wrap (V (Proc.devRef .tc main_v3)))))
          (broadcastInDim S3300000x64 ![0, 1] bcast_S3300000x1_S3300000x64_0_1
            (broadcastInDim S3300000x1 ![0] bcast_S3300000_S3300000x1_0 (V (Proc.devRef .tc main_v31))))) := by
  after_results_simp
  rfl

/-- The same stretch presents the second bias as a one-row matrix. -/
theorem ops2_v61 : StableHlo.after hostOps2 V (Proc.devRef .tc main_v61) = row64 (V (Proc.devRef .tc main_arg5)) := by
  after_results
  rfl

end Stretch

/-! ## The edge list's derived arrays along the run

`e` is the edge list as launched. The first stretch computes `sources e` and `targets e`, the guard's stretch
`invSqrt e`, the third stretch `weights e`; no later stretch and no dense stage writes these buffers. -/

variable (m : (ℓ : Loc nD τ sig) → Buf (Elt F) ℓ) (ρ : Dev nD → PrngReg)

theorem W1_v3 (c : Dev nD) : W1 m ρ c (Proc.devRef .tc main_v3) = sources (m ((c : Thread nD τ).loc main_arg1)) :=
  ops0_v3 (W0 m ρ c)
theorem W1_v6 (c : Dev nD) : W1 m ρ c (Proc.devRef .tc main_v6) = targets (m ((c : Thread nD τ).loc main_arg1)) :=
  ops0_v6 (W0 m ρ c)
theorem W1_v12 (c : Dev nD) : W1 m ρ c (Proc.devRef .tc main_v12)
    = cmpf (F := F) .ogt (degree (m ((c : Thread nD τ).loc main_arg1))) (broadcastInDim S100000 ![] bcast_S_S100000 (constant S_ .f32 0x00000000#32)) :=
  ops0_v12 (W0 m ρ c)
theorem W1_v15 (c : Dev nD) : W1 m ρ c (Proc.devRef .tc main_v15)
    = Host.rsqrt (maximumf (degree (F := F) (m ((c : Thread nD τ).loc main_arg1))) (broadcastInDim S100000 ![] bcast_S_S100000 (constant S_ .f32 0x3F800000#32))) :=
  ops0_v15 (W0 m ρ c)
theorem W1_cst3 (c : Dev nD) : W1 m ρ c (Proc.devRef .tc main_cst_3) = (constant S_ .f32 0x00000000#32 : FVec F S_ .f32) :=
  ops0_cst3 (W0 m ρ c)

theorem W2_v3 (c : Dev nD) : W2 m ρ c (Proc.devRef .tc main_v3) = sources (m ((c : Thread nD τ).loc main_arg1)) :=
  (ops01_keep_v3 (W1 m ρ c)).trans (W1_v3 m ρ c)
theorem W2_v6 (c : Dev nD) : W2 m ρ c (Proc.devRef .tc main_v6) = targets (m ((c : Thread nD τ).loc main_arg1)) :=
  (ops01_keep_v6 (W1 m ρ c)).trans (W1_v6 m ρ c)
/-- After the guard's stretch `main_v16` holds `d⁻¹ᐟ²` per node. -/
theorem W2_v16 (c : Dev nD) : W2 m ρ c (Proc.devRef .tc main_v16) = invSqrt (m ((c : Thread nD τ).loc main_arg1)) :=
  (ops01_v16 (W1 m ρ c)).trans (by rw [W1_v12 m ρ c, W1_v15 m ρ c, W1_cst3 m ρ c]; rfl)

theorem W3_v3 (c : Dev nD) : W3 m ρ c (Proc.devRef .tc main_v3) = sources (m ((c : Thread nD τ).loc main_arg1)) :=
  (ops02_keep_v3 (W2 m ρ c)).trans (W2_v3 m ρ c)
theorem W3_v6 (c : Dev nD) : W3 m ρ c (Proc.devRef .tc main_v6) = targets (m ((c : Thread nD τ).loc main_arg1)) :=
  (ops02_keep_v6 (W2 m ρ c)).trans (W2_v6 m ρ c)
/-- At the first stage's entry `main_v31` holds the edges' weights. -/
theorem W3_v31 (c : Dev nD) : W3 m ρ c (Proc.devRef .tc main_v31) = weights (m ((c : Thread nD τ).loc main_arg1)) :=
  (ops02_v31 (W2 m ρ c)).trans (by rw [W2_v16 m ρ c, W2_v3 m ρ c, W2_v6 m ρ c]; rfl)

/-- An argument no host stretch writes is, at the first stage's entry, as launched. -/
theorem W3_arg0 (c : Dev nD) : W3 m ρ c (Proc.devRef .tc main_arg0) = m ((c : Thread nD τ).loc main_arg0) :=
  (ops02_keep_arg0 (W2 m ρ c)).trans ((ops01_keep_arg0 (W1 m ρ c)).trans (ops0_keep_arg0 (W0 m ρ c)))
theorem W3_arg2 (c : Dev nD) : W3 m ρ c (Proc.devRef .tc main_arg2) = m ((c : Thread nD τ).loc main_arg2) :=
  (ops02_keep_arg2 (W2 m ρ c)).trans ((ops01_keep_arg2 (W1 m ρ c)).trans (ops0_keep_arg2 (W0 m ρ c)))
theorem W3_arg3 (c : Dev nD) : W3 m ρ c (Proc.devRef .tc main_arg3) = m ((c : Thread nD τ).loc main_arg3) :=
  (ops02_keep_arg3 (W2 m ρ c)).trans ((ops01_keep_arg3 (W1 m ρ c)).trans (ops0_keep_arg3 (W0 m ρ c)))
theorem W3_arg4 (c : Dev nD) : W3 m ρ c (Proc.devRef .tc main_arg4) = m ((c : Thread nD τ).loc main_arg4) :=
  (ops02_keep_arg4 (W2 m ρ c)).trans ((ops01_keep_arg4 (W1 m ρ c)).trans (ops0_keep_arg4 (W0 m ρ c)))
theorem W3_arg5 (c : Dev nD) : W3 m ρ c (Proc.devRef .tc main_arg5) = m ((c : Thread nD τ).loc main_arg5) :=
  (ops02_keep_arg5 (W2 m ρ c)).trans ((ops01_keep_arg5 (W1 m ρ c)).trans (ops0_keep_arg5 (W0 m ρ c)))

/-! The first dense stage writes only its own arrays. -/

theorem W4_v3 (c : Dev nD) : W4 m ρ c (Proc.devRef .tc main_v3) = sources (m ((c : Thread nD τ).loc main_arg1)) :=
  (W4_of_ne m ρ c main_v3 (by decide)).trans (W3_v3 m ρ c)
theorem W4_v6 (c : Dev nD) : W4 m ρ c (Proc.devRef .tc main_v6) = targets (m ((c : Thread nD τ).loc main_arg1)) :=
  (W4_of_ne m ρ c main_v6 (by decide)).trans (W3_v6 m ρ c)
theorem W4_v31 (c : Dev nD) : W4 m ρ c (Proc.devRef .tc main_v31) = weights (m ((c : Thread nD τ).loc main_arg1)) :=
  (W4_of_ne m ρ c main_v31 (by decide)).trans (W3_v31 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! Nor does the stretch after it, nor the second dense stage, write the edge list's derived arrays. -/

theorem W6_v3 (c : Dev nD) : W6 m ρ c (Proc.devRef .tc main_v3) = sources (m ((c : Thread nD τ).loc main_arg1)) :=
  (W6_of_ne m ρ c main_v3 (by decide)).trans ((ops1_keep_v3 (W4 m ρ c)).trans (W4_v3 m ρ c))
theorem W6_v6 (c : Dev nD) : W6 m ρ c (Proc.devRef .tc main_v6) = targets (m ((c : Thread nD τ).loc main_arg1)) :=
  (W6_of_ne m ρ c main_v6 (by decide)).trans ((ops1_keep_v6 (W4 m ρ c)).trans (W4_v6 m ρ c))
theorem W6_v31 (c : Dev nD) : W6 m ρ c (Proc.devRef .tc main_v31) = weights (m ((c : Thread nD τ).loc main_arg1)) :=
  (W6_of_ne m ρ c main_v31 (by decide)).trans ((ops1_keep_v31 (W4 m ρ c)).trans (W4_v31 m ρ c))
theorem W6_arg5 (c : Dev nD) : W6 m ρ c (Proc.devRef .tc main_arg5) = m ((c : Thread nD τ).loc main_arg5) :=
  (W6_of_ne m ρ c main_arg5 (by decide)).trans ((ops1_keep_arg5 (W4 m ρ c)).trans (W4_arg5 m ρ c))

/-! ## The stages' entry contents -/

/-- The first stage finds the node features as launched. -/
theorem entry0_x (c : Dev nD) : W3 m ρ c (Proc.devRef .tc main_arg0) = m ((c : Thread nD τ).loc main_arg0) :=
  W3_arg0 m ρ c

/-- The first stage finds the first weight matrix as launched. -/
theorem entry0_w (c : Dev nD) : W3 m ρ c (Proc.devRef .tc main_arg2) = m ((c : Thread nD τ).loc main_arg2) :=
  W3_arg2 m ρ c

/-- The second stage finds the first stage's result spread along the edges. -/
theorem entry1_agg (c : Dev nD) :
    W5 m ρ c (Proc.devRef .tc main_v45) = spread16 (W4 m ρ c (Proc.devRef .tc main_v32)) (m ((c : Thread nD τ).loc main_arg1)) :=
  (ops1_v45 (W4 m ρ c)).trans (by rw [W4_v6 m ρ c, W4_v3 m ρ c, W4_v31 m ρ c]; rfl)

/-- The second stage finds the first bias as a row. -/
theorem entry1_bias (c : Dev nD) : W5 m ρ c (Proc.devRef .tc main_v46) = row16 (m ((c : Thread nD τ).loc main_arg3)) :=
  (ops1_v46 (W4 m ρ c)).trans (by rw [W4_arg3 m ρ c])

/-- The second stage finds the second weight matrix as launched. -/
theorem entry1_w (c : Dev nD) : W5 m ρ c (Proc.devRef .tc main_arg4) = m ((c : Thread nD τ).loc main_arg4) :=
  (ops1_keep_arg4 (W4 m ρ c)).trans (W4_arg4 m ρ c)

/-- The third stage finds the second stage's result spread along the edges. -/
theorem entry2_agg (c : Dev nD) :
    W7 m ρ c (Proc.devRef .tc main_v60) = spread64 (W6 m ρ c (Proc.devRef .tc main_v47)) (m ((c : Thread nD τ).loc main_arg1)) :=
  (ops2_v60 (W6 m ρ c)).trans (by rw [W6_v6 m ρ c, W6_v3 m ρ c, W6_v31 m ρ c]; rfl)

/-- The third stage finds the second bias as a row. -/
theorem entry2_bias (c : Dev nD) : W7 m ρ c (Proc.devRef .tc main_v61) = row64 (m ((c : Thread nD τ).loc main_arg5)) :=
  (ops2_v61 (W6 m ρ c)).trans (by rw [W6_arg5 m ρ c])

end Cert.KernelIdeal.HostFold

end
-- ==== Proof.RefBridge.lean ====
/-
  The reference's result, stage by stage: its composed term is the three dense stages of Proof/Spec.lean with the
  edge aggregation of Proof/Edges.lean between them. The reference spells the first linear map as one host
  `dot_general` over all 100000 rows, the second as `relu` of the biased aggregate into another `dot_general`, and the
  logistic function as `1 / (1 + exp (−z))`; each is read at an index and met with the specification there.
-/
import proofs.«119095_j27427661152768_1_alg».proof.Proof.RefRead
import proofs.«119095_j27427661152768_1_alg».proof.Proof.Spec
import proofs.«119095_j27427661152768_1_alg».proof.Proof.Edges
import Idealize.ShloMosaic.Lib.ValueIdx
import Idealize.ShloMosaic.Lib.Pipeline.Value
import Idealize.ShloMosaic.PureOps.Ideal.Laws
import Idealize.ShloMosaic.Lib.ValueLayout
import Idealize.ShloMosaic.Lib.IdealHost

set_option maxRecDepth 16384

noncomputable section

namespace Cert.ReferenceIdeal.Bridge

open Cert.ReferenceIdeal Cert.ReferenceIdeal.Gen Idealize.ShloMosaic Idealize.ShloMosaic.TcCoe Idealize.SL.Sem
open Idealize.ShloMosaic.ValueIdx

/-! ### The edge stages: the reference's operations are the aggregation's, operation for operation -/

section Edge
variable {F : FTy → Type} [FloatOps F]

/-- The reference's source column: row 0 of the edge list, then the self loops. -/
theorem sources_eq (x1 : (⟨S2x3200000, .i32⟩ : BufTy).Contents (Elt F)) :
    ReadP.val_main_v3 (F := F) x1 = Cert.KernelIdeal.Edges.sources x1 := rfl

/-- The reference's target column: row 1 of the edge list, then the self loops. -/
theorem targets_eq (x1 : (⟨S2x3200000, .i32⟩ : BufTy).Contents (Elt F)) :
    ReadP.val_main_v6 (F := F) x1 = Cert.KernelIdeal.Edges.targets x1 := rfl

/-- The reference's guarded inverse square root of the in-degree, per node. -/
theorem invSqrt_eq (x1 : (⟨S2x3200000, .i32⟩ : BufTy).Contents (Elt F)) :
    ReadP.val_main_v16 (F := F) x1 = Cert.KernelIdeal.Edges.invSqrt (F := F) x1 := rfl

/-- The reference's per-edge weight: the two ends' inverse square roots multiplied. -/
theorem weights_eq (x1 : (⟨S2x3200000, .i32⟩ : BufTy).Contents (Elt F)) :
    ReadP.val_main_v31 (F := F) x1 = Cert.KernelIdeal.Edges.weights (F := F) x1 := rfl

/-- The first aggregation: 16-channel rows gathered at the sources, weighed, summed at the targets. -/
theorem spread16_eq (x0 : (⟨S100000x128, .f32⟩ : BufTy).Contents (Elt F))
    (x1 : (⟨S2x3200000, .i32⟩ : BufTy).Contents (Elt F)) (x2 : (⟨S128x16, .f32⟩ : BufTy).Contents (Elt F)) :
    ReadP.val_main_v45 (F := F) x0 x1 x2
      = Cert.KernelIdeal.Edges.spread16 (F := F) (ReadP.val_main_v32 (F := F) x0 x2) x1 := rfl

/-- The second aggregation: 64-channel rows gathered at the sources, weighed, summed at the targets. -/
theorem spread64_eq (x0 : (⟨S100000x128, .f32⟩ : BufTy).Contents (Elt F))
    (x1 : (⟨S2x3200000, .i32⟩ : BufTy).Contents (Elt F)) (x2 : (⟨S128x16, .f32⟩ : BufTy).Contents (Elt F))
    (x3 : (⟨S16, .f32⟩ : BufTy).Contents (Elt F)) (x4 : (⟨S16x64, .f32⟩ : BufTy).Contents (Elt F)) :
    ReadP.val_main_v63 (F := F) x0 x1 x2 x3 x4
      = Cert.KernelIdeal.Edges.spread64 (F := F) (ReadP.val_main_v50 (F := F) x0 x1 x2 x3 x4) x1 := rfl

end Edge

/-! ### The dense stages, read at an index -/

/-- The first linear map: the host's contraction over the 128 input channels is the specification's sum. -/
theorem project_eq (x0 : (⟨S100000x128, .f32⟩ : BufTy).Contents (Elt Ideal))
    (x2 : (⟨S128x16, .f32⟩ : BufTy).Contents (Elt Ideal)) :
    ReadP.val_main_v32 (F := Ideal) x0 x2 = Cert.Gcn.project x0 x2 := by
  funext i
  rw [ReadP.val_main_v32_apply]
  unfold Cert.Gcn.project
  refine Finset.sum_congr rfl fun k _ => ?_
  have hl : ReadP.lidx_main_v32 i k = ix2 (n0 := 100000) (n1 := 128) (i 0) k :=
    funext fun a => Fin.ext (by match a with | ⟨0, _⟩ => rfl | ⟨1, _⟩ => rfl)
  have hr : ReadP.ridx_main_v32 i k = ix2 (n0 := 128) (n1 := 16) k (i 1) :=
    funext fun a => Fin.ext (by match a with | ⟨0, _⟩ => rfl | ⟨1, _⟩ => rfl)
  rw [hl, hr]

/-- Bias, rectifier and second linear map: per node, the aggregate plus the bias row is cut off below at zero and
contracted over the 16 hidden channels. -/
theorem hidden_eq (x0 : (⟨S100000x128, .f32⟩ : BufTy).Contents (Elt Ideal))
    (x1 : (⟨S2x3200000, .i32⟩ : BufTy).Contents (Elt Ideal)) (x2 : (⟨S128x16, .f32⟩ : BufTy).Contents (Elt Ideal))
    (x3 : (⟨S16, .f32⟩ : BufTy).Contents (Elt Ideal)) (x4 : (⟨S16x64, .f32⟩ : BufTy).Contents (Elt Ideal)) :
    ReadP.val_main_v50 (F := Ideal) x0 x1 x2 x3 x4
      = Cert.Gcn.hidden (ReadP.val_main_v45 (F := Ideal) x0 x1 x2) (Cert.KernelIdeal.Edges.row16 x3) x4 := by
  funext i
  rw [ReadP.val_main_v50_apply]
  unfold Cert.Gcn.hidden
  refine Finset.sum_congr rfl fun k _ => ?_
  rw [ReadP.val_main_v49_apply, ReadP.val_main_v48_apply, ReadP.val_main_v47_apply, ReadP.val_main_v46_apply,
    ReadP.val_main_call1_v0_apply, ReadP.val_main_call1_cst_apply]
  have hl : ReadP.lidx_main_v50 i k = ix2 (n0 := 100000) (n1 := 16) (i 0) k :=
    funext fun a => Fin.ext (by match a with | ⟨0, _⟩ => rfl | ⟨1, _⟩ => rfl)
  have hr : ReadP.ridx_main_v50 i k = ix2 (n0 := 16) (n1 := 64) k (i 1) :=
    funext fun a => Fin.ext (by match a with | ⟨0, _⟩ => rfl | ⟨1, _⟩ => rfl)
  have hb : Cert.KernelIdeal.Edges.row16 (F := Ideal) x3 (ix2 (n0 := 1) (n1 := 16) 0 k)
      = x3 (ReadP.idx_main_v46 (ReadP.idx_main_v47 (ReadP.lidx_main_v50 i k))) := by
    unfold Cert.KernelIdeal.Edges.row16
    rw [shapeCast_a_1a_apply]
    exact congrArg x3 (funext fun a => Fin.ext (by match a with | ⟨0, _⟩ => rfl))
  rw [hb, hr, Ideal.maximumf_def, Ideal.addf_def, Ideal.ofBits_def, Ideal.ofBits_zero_f32, hl]

/-- Bias and logistic function: the reference spells the logistic function as one over one plus the exponential of the
negated argument, which is its definition over the extended reals. -/
theorem squash_eq (x0 : (⟨S100000x128, .f32⟩ : BufTy).Contents (Elt Ideal))
    (x1 : (⟨S2x3200000, .i32⟩ : BufTy).Contents (Elt Ideal)) (x2 : (⟨S128x16, .f32⟩ : BufTy).Contents (Elt Ideal))
    (x3 : (⟨S16, .f32⟩ : BufTy).Contents (Elt Ideal)) (x4 : (⟨S16x64, .f32⟩ : BufTy).Contents (Elt Ideal))
    (x5 : (⟨S64, .f32⟩ : BufTy).Contents (Elt Ideal)) :
    ReadP.val_main_v72 (F := Ideal) x0 x1 x2 x3 x4 x5
      = Cert.Gcn.squash (ReadP.val_main_v63 (F := Ideal) x0 x1 x2 x3 x4) (Cert.KernelIdeal.Edges.row64 x5) := by
  funext i
  rw [ReadP.val_main_v72_apply, ReadP.val_main_v71_apply, ReadP.val_main_cst_14_apply, ReadP.val_main_v70_apply,
    ReadP.val_main_v69_apply, ReadP.val_main_cst_13_apply, ReadP.val_main_v68_apply, ReadP.val_main_v67_apply,
    ReadP.val_main_v66_apply, ReadP.val_main_v65_apply, ReadP.val_main_v64_apply]
  have hb : Cert.KernelIdeal.Edges.row64 (F := Ideal) x5 (ix2 (n0 := 1) (n1 := 64) 0 (i 1))
      = x5 (ReadP.idx_main_v64 (ReadP.idx_main_v65 i)) :=
    (shapeCast_a_1a_apply (a := 64) x5 _ (0 : Fin 1) (i 1)).trans
      (congrArg x5 (funext fun a => Fin.ext (by match a with | ⟨0, _⟩ => rfl)))
  unfold Cert.Gcn.squash Ideal.logistic
  rw [hb, Ideal.hostDivf_def, Ideal.ofBits_def, Ideal.ofBits_one_f32, Ideal.addf_def, Ideal.hostUnary_exp_def,
    Ideal.hostNegf_def, Ideal.negf_def, Ideal.addf_def]

/-- The reference's result is the specification's composition of the argument arrays. -/
theorem result_eq (m : (ℓ : Loc nD τ sig) → Buf (Elt Ideal) ℓ) (c : Dev nD) :
    Cert.ReferenceIdeal.ValueP.res_main_v72 (F := Ideal) m c
      = Cert.Gcn.squash
          (Cert.KernelIdeal.Edges.spread64
            (Cert.Gcn.hidden
              (Cert.KernelIdeal.Edges.spread16
                (Cert.Gcn.project (m ((c.tc : Thread nD τ).loc main_arg0)) (m ((c.tc : Thread nD τ).loc main_arg2)))
                (m ((c.tc : Thread nD τ).loc main_arg1)))
              (Cert.KernelIdeal.Edges.row16 (m ((c.tc : Thread nD τ).loc main_arg3)))
              (m ((c.tc : Thread nD τ).loc main_arg4)))
            (m ((c.tc : Thread nD τ).loc main_arg1)))
          (Cert.KernelIdeal.Edges.row64 (m ((c.tc : Thread nD τ).loc main_arg5))) := by
  rw [ReadP.val_main_v72_eq, squash_eq, spread64_eq, hidden_eq, spread16_eq, project_eq]

end Cert.ReferenceIdeal.Bridge

end
-- ==== Proof.lean ====
/-
  A two-layer graph convolution over 100000 nodes and 3300000 edges (the edge list plus one self loop per node):
  `out = σ (Â · max (Â · (x W₁) + b₁) 0 · W₂ + b₂)`, `Â` the edge aggregation with symmetric degree weights.
  The kernel computes the three dense stages (`x W₁`; bias, rectifier, `· W₂`; bias, logistic) in row blocks of
  5000 nodes and leaves the aggregation to host operations; the reference is host operations throughout, its
  first linear map one contraction over all rows and its logistic function spelled `1 / (1 + exp (−z))`.

  Over the extended reals the two agree operation by operation: narrowing to bf16 is the identity, a block
  product into a zero accumulator is the contraction restricted to the block's rows, the blocks cover the rows, the
  aggregation is the same host operations on both sides, and the logistic function is by definition the
  reference's expression. No law used needs finiteness, so the precondition is never opened.

  Proof/Spec.lean states the dense stages, Proof/Edges.lean the aggregation; Project / Hidden / Squash read each
  stage's output array off its blocks; HostFold reads each stage's entry contents back through the host
  operations; ResultRun is the run of @main with its result buffer named; RefBridge reads the reference's
  result stage by stage. Here they are put together.
-/
import proofs.«119095_j27427661152768_1_alg».proof.Defs
import proofs.«119095_j27427661152768_1_alg».proof.Proof.Gen.Kernel
import proofs.«119095_j27427661152768_1_alg».proof.Proof.Gen.Kernel.Skeleton
import proofs.«119095_j27427661152768_1_alg».proof.Proof.Gen.Kernel.Launch
import proofs.«119095_j27427661152768_1_alg».proof.Proof.Gen.Kernel.Points
import proofs.«119095_j27427661152768_1_alg».proof.Proof.Gen.Kernel.Frame
import proofs.«119095_j27427661152768_1_alg».proof.Proof.Gen.KernelIdeal
import proofs.«119095_j27427661152768_1_alg».proof.Proof.Gen.KernelIdeal.Skeleton
import proofs.«119095_j27427661152768_1_alg».proof.Proof.Gen.KernelIdeal.Launch
import proofs.«119095_j27427661152768_1_alg».proof.Proof.Gen.KernelIdeal.Points
import proofs.«119095_j27427661152768_1_alg».proof.Proof.Gen.KernelIdeal.Frame
import proofs.«119095_j27427661152768_1_alg».proof.Proof.Gen.ReferenceIdeal
import proofs.«119095_j27427661152768_1_alg».proof.Proof.Gen.Pre_finite_inputs
import proofs.«119095_j27427661152768_1_alg».proof.Proof.Spec
import proofs.«119095_j27427661152768_1_alg».proof.Proof.Edges
import proofs.«119095_j27427661152768_1_alg».proof.Proof.ResultRun
import proofs.«119095_j27427661152768_1_alg».proof.Proof.Project
import proofs.«119095_j27427661152768_1_alg».proof.Proof.Hidden
import proofs.«119095_j27427661152768_1_alg».proof.Proof.Squash
import proofs.«119095_j27427661152768_1_alg».proof.Proof.HostFold
import proofs.«119095_j27427661152768_1_alg».proof.Proof.RefRun
import proofs.«119095_j27427661152768_1_alg».proof.Proof.RefRead
import proofs.«119095_j27427661152768_1_alg».proof.Proof.RefBridge
import Idealize.ShloMosaic.Adequacy
import Idealize.ShloMosaic.Init

set_option maxRecDepth 16384

noncomputable section

namespace Cert.Proof

open Idealize.ShloMosaic Idealize.ShloMosaic.TcCoe Idealize.SL.Sem

/-! ## The kernel's result -/

section KernelResult

open Cert.KernelIdeal Cert.KernelIdeal.Gen Cert.KernelIdeal.Edges

variable (m : (ℓ : Loc nD τ sig) → Buf (Elt Ideal) ℓ) (ρ : Dev nD → PrngReg)

/-- The two-layer graph convolution of the launch arrays: project, spread along the edges, bias–rectify–project,
    spread along the edges, bias–logistic. -/
def convolved (c : Dev nD) : FVec Ideal S100000x64 .f32 :=
  Cert.Gcn.squash
    (spread64
      (Cert.Gcn.hidden
        (spread16 (Cert.Gcn.project (m ((c : Thread nD τ).loc main_arg0)) (m ((c : Thread nD τ).loc main_arg2)))
          (m ((c : Thread nD τ).loc main_arg1)))
        (row16 (m ((c : Thread nD τ).loc main_arg3)))
        (m ((c : Thread nD τ).loc main_arg4)))
      (m ((c : Thread nD τ).loc main_arg1)))
    (row64 (m ((c : Thread nD τ).loc main_arg5)))

/-- The first stage's output array at its exit. -/
theorem stage1 (c : Dev nD) :
    W4 m ρ c (Proc.devRef .tc main_v32)
      = Cert.Gcn.project (m ((c : Thread nD τ).loc main_arg0)) (m ((c : Thread nD τ).loc main_arg2)) :=
  calc W4 m ρ c (Proc.devRef .tc main_v32)
      = (dat0 (V3 m ρ) c).arrAt 2 cfg0.N := W4_arr m ρ c 2
    _ = Cert.Gcn.project (W3 m ρ c (Proc.devRef .tc main_arg0)) (W3 m ρ c (Proc.devRef .tc main_arg2)) :=
        Cert.KernelIdeal.Project.array_eq (V3 m ρ) c
    _ = _ := by rw [Cert.KernelIdeal.HostFold.entry0_x, Cert.KernelIdeal.HostFold.entry0_w]

/-- The second stage's output array at its exit. -/
theorem stage2 (c : Dev nD) :
    W6 m ρ c (Proc.devRef .tc main_v47)
      = Cert.Gcn.hidden
          (spread16 (Cert.Gcn.project (m ((c : Thread nD τ).loc main_arg0)) (m ((c : Thread nD τ).loc main_arg2)))
            (m ((c : Thread nD τ).loc main_arg1)))
          (row16 (m ((c : Thread nD τ).loc main_arg3))) (m ((c : Thread nD τ).loc main_arg4)) :=
  calc W6 m ρ c (Proc.devRef .tc main_v47)
      = (dat1 (V5 m ρ) c).arrAt 3 cfg1.N := W6_arr m ρ c 3
    _ = Cert.Gcn.hidden (W5 m ρ c (Proc.devRef .tc main_v45)) (W5 m ρ c (Proc.devRef .tc main_v46))
          (W5 m ρ c (Proc.devRef .tc main_arg4)) := Cert.KernelIdeal.Hidden.array_eq (V5 m ρ) c
    _ = _ := by rw [Cert.KernelIdeal.HostFold.entry1_agg, Cert.KernelIdeal.HostFold.entry1_bias, Cert.KernelIdeal.HostFold.entry1_w, stage1]

/-- The result buffer at the end of @main: the convolution of the launch arrays. -/
theorem result (c : Dev nD) : W8 m ρ c (Proc.devRef .tc main_v62) = convolved m c :=
  calc W8 m ρ c (Proc.devRef .tc main_v62)
      = (dat2 (V7 m ρ) c).arrAt 2 cfg2.N := W8_arr m ρ c 2
    _ = Cert.Gcn.squash (W7 m ρ c (Proc.devRef .tc main_v60)) (W7 m ρ c (Proc.devRef .tc main_v61)) :=
        Cert.KernelIdeal.Squash.array_eq (V7 m ρ) c
    _ = _ := by rw [Cert.KernelIdeal.HostFold.entry2_agg, Cert.KernelIdeal.HostFold.entry2_bias, stage2]; rfl

end KernelResult

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end at the convolution of the (agreeing) argument arrays: the kernel by its three dense
    stages read back through the host operations between them, the reference by its own operations read stage by
    stage. -/
theorem algebraic : Cert.algebraic_KernelIdeal_ReferenceIdeal := by
  intro m ρ m' ρ' _ hagree
  refine ⟨fun c => convolved m c, ?_, ?_⟩
  · exact (θ_run Cert.KernelIdeal.defs _ _).mono (fun r h c => ⟨(h c).1.trans (result m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Bridge.result_eq m' c, (hagree c).1, (hagree c).2.1, (hagree c).2.2.1, (hagree c).2.2.2.1,
      (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
